-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 28
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S8192x1024, .f32⟩
  | .hbm, ⟨27, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4096x1024, .bf16⟩
  | .local _ .vmem, ⟨5, _⟩ => ⟨S4096x1024, .bf16⟩
  | .local _ .vmem, ⟨6, _⟩ => ⟨S4096, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7_0 : Ref sig .tc := ⟨.hbm, 26, rfl⟩
abbrev main_v7_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KFrame.lean ====
/-
  The frame of the fused LSTM cell's program, at any float instance.

  The program first concatenates the four input-side weight matrices, the four hidden-side ones and the two groups of
  four bias vectors (rounding the two stacked weight matrices to bf16 and adding the two stacked biases), and then
  runs one pipelined region over 32 row blocks of 256 rows.  At a grid point the body reads the x, h and c blocks and
  the whole stacked weights and bias, and overwrites both of its output blocks whole, so what an output's buffer holds
  after the body is one covering piece: the cell payload (`k0_pay2`) for the new cell state and the hidden payload
  (`k0_pay3`) for the new hidden state, each of the blocks read.  No host operation writes an argument array, the
  region writes back only its two result arrays, and so every argument array ends as it was launched.
-/
import proofs.«141649_j5909875000082_1_alg».proof.Proof.Gen.Kernel.Launch
import proofs.«141649_j5909875000082_1_alg».proof.Proof.Gen.Kernel.Skeleton
import proofs.«141649_j5909875000082_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch memory after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: each is found by the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or the
    block index has not moved since it was fetched (the stacked weights and bias are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a frame run -/

/-- A run to the library's frame post, read at the argument arrays: x, h and c are staged inputs never written back,
    the weights and biases are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in each output buffer -/

abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S4096 := Rect.unit (s := S4096) ![0] S4096.size inb_S4096_S4096_0

/-- The new hidden state's buffer after the body: one whole-block store of the hidden payload. -/
def out0_6 (x0 : Vec F S256x1024 .f32) (x1 : Vec F S256x1024 .f32) (x2 : Vec F S4096x1024 .bf16) (x3 : Vec F S4096x1024 .bf16) (x4 : Vec F S4096 .f32) (x5 : Vec F S256x1024 .f32) : Vec F S256x1024 .f32 :=
  View.canon [⟨rA, k0_pay3 (View.ld x0 rA) (View.ld x1 rA) (View.ld x2 rW) (View.ld x3 rW) (View.ld x4 rB) (View.ld x5 rA)⟩]

/-- The new cell state's buffer after the body: one whole-block store of the cell payload. -/
def out0_7 (x0 : Vec F S256x1024 .f32) (x1 : Vec F S256x1024 .f32) (x2 : Vec F S4096x1024 .bf16) (x3 : Vec F S4096x1024 .bf16) (x4 : Vec F S4096 .f32) (x5 : Vec F S256x1024 .f32) : Vec F S256x1024 .f32 :=
  View.canon [⟨rA, k0_pay2 (View.ld x0 rA) (View.ld x1 rA) (View.ld x2 rW) (View.ld x3 rW) (View.ld x4 rB) (View.ld x5 rA)⟩]

/-- A whole-block store covers the block. -/
theorem cover0 (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- On whole staging buffers, the six inputs' at read contents and the two outputs' at anything, the body runs to a
    state with the inputs' as they were and each output's at its payload of the inputs. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S4096 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S256x1024 .f32) (x2 : Vec F S4096x1024 .bf16) (x3 : Vec F S4096x1024 .bf16) (x4 : Vec F S4096 .f32) (x5 : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The arrays as the region finds them; after the body at a point each input's buffer at its block and each output's
    at its payload of the input blocks; nothing owed, full shares, the invariant the scoped rest and the generator
    register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every array of the pipeline ends at what the library
    computes from the proof data, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The run with the two result arrays named, the arguments unchanged. -/
theorem run_named : θ_run defs (onTc (τ := τ) (main (F := F))) ⟨m, fun _ => 0, ρ⟩ (fun r => ∀ c : Dev nD,
      r.2.mem ((c.tc : Thread nD τ).loc main_v7_0) = (dats m 0 c).arrAt 6 cfg0.N
      ∧ r.2.mem ((c.tc : Thread nD τ).loc main_v7_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.Kernel.Frm

end
-- ==== Proof.KIFrame.lean ====
/-
  The frame of the fused LSTM cell's program, at any float instance.

  The program first concatenates the four input-side weight matrices, the four hidden-side ones and the two groups of
  four bias vectors (rounding the two stacked weight matrices to bf16 and adding the two stacked biases), and then
  runs one pipelined region over 32 row blocks of 256 rows.  At a grid point the body reads the x, h and c blocks and
  the whole stacked weights and bias, and overwrites both of its output blocks whole, so what an output's buffer holds
  after the body is one covering piece: the cell payload (`k0_pay2`) for the new cell state and the hidden payload
  (`k0_pay3`) for the new hidden state, each of the blocks read.  No host operation writes an argument array, the
  region writes back only its two result arrays, and so every argument array ends as it was launched.
-/
import proofs.«141649_j5909875000082_1_alg».proof.Proof.Gen.KernelIdeal.Launch
import proofs.«141649_j5909875000082_1_alg».proof.Proof.Gen.KernelIdeal.Skeleton
import proofs.«141649_j5909875000082_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch memory after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: each is found by the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or the
    block index has not moved since it was fetched (the stacked weights and bias are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a frame run -/

/-- A run to the library's frame post, read at the argument arrays: x, h and c are staged inputs never written back,
    the weights and biases are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in each output buffer -/

abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S4096 := Rect.unit (s := S4096) ![0] S4096.size inb_S4096_S4096_0

/-- The new hidden state's buffer after the body: one whole-block store of the hidden payload. -/
def out0_6 (x0 : Vec F S256x1024 .f32) (x1 : Vec F S256x1024 .f32) (x2 : Vec F S4096x1024 .bf16) (x3 : Vec F S4096x1024 .bf16) (x4 : Vec F S4096 .f32) (x5 : Vec F S256x1024 .f32) : Vec F S256x1024 .f32 :=
  View.canon [⟨rA, k0_pay3 (View.ld x0 rA) (View.ld x1 rA) (View.ld x2 rW) (View.ld x3 rW) (View.ld x4 rB) (View.ld x5 rA)⟩]

/-- The new cell state's buffer after the body: one whole-block store of the cell payload. -/
def out0_7 (x0 : Vec F S256x1024 .f32) (x1 : Vec F S256x1024 .f32) (x2 : Vec F S4096x1024 .bf16) (x3 : Vec F S4096x1024 .bf16) (x4 : Vec F S4096 .f32) (x5 : Vec F S256x1024 .f32) : Vec F S256x1024 .f32 :=
  View.canon [⟨rA, k0_pay2 (View.ld x0 rA) (View.ld x1 rA) (View.ld x2 rW) (View.ld x3 rW) (View.ld x4 rB) (View.ld x5 rA)⟩]

/-- A whole-block store covers the block. -/
theorem cover0 (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 1000000 in
/-- On whole staging buffers, the six inputs' at read contents and the two outputs' at anything, the body runs to a
    state with the inputs' as they were and each output's at its payload of the inputs. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S4096 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole)
    (x0 : Vec F S256x1024 .f32) (x1 : Vec F S256x1024 .f32) (x2 : Vec F S4096x1024 .bf16) (x3 : Vec F S4096x1024 .bf16) (x4 : Vec F S4096 .f32) (x5 : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The arrays as the region finds them; after the body at a point each input's buffer at its block and each output's
    at its payload of the input blocks; nothing owed, full shares, the invariant the scoped rest and the generator
    register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every array of the pipeline ends at what the library
    computes from the proof data, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The run with the two result arrays named, the arguments unchanged. -/
theorem run_named : θ_run defs (onTc (τ := τ) (main (F := F))) ⟨m, fun _ => 0, ρ⟩ (fun r => ∀ c : Dev nD,
      r.2.mem ((c.tc : Thread nD τ).loc main_v7_0) = (dats m 0 c).arrAt 6 cfg0.N
      ∧ r.2.mem ((c.tc : Thread nD τ).loc main_v7_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Frm

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotT.lean ====
/-
  A matrix product with both operands contracted on their LAST axis (an `M × K` left operand against an `N × K` right
  operand: the left times the transpose of the right), one contracted axis and no batch axis, read at an entry at
  the ideal values: with the accumulator the zero constant, entry (a, b) is the sum over `c` of the left operand's
  (a, c) entry times the right operand's (b, c) entry.  It holds for any dimension-numbers record whose axis lists are
  the stated ones (a printed record satisfies each hypothesis by `rfl`).
-/
import proofs.«141649_j5909875000082_1_alg».proof.Proof.LibDot

noncomputable section

open scoped BigOperators

namespace Cert.LibDot

open Idealize.ShloMosaic Idealize.ShloMosaic.ValueIdx

/-- An `M × K` left operand and an `N × K` right operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.Spec.lean ====
/-
  The fused LSTM cell, index by index, on the extended reals.

  With X, H the inputs and C the previous cell state (8192 rows of 1024), WX, WH the four input-side and the four
  hidden-side weight matrices stacked (4096 rows of 1024: input, forget, cell and output gate, in that order) and
  BX, BH the stacked biases, the pre-activation of gate column n at row r is

      (sum over k of X[r,k] * WX[n,k]) + (sum over k of H[r,k] * WH[n,k]) + bias,

  where one program adds the two biases first and the other adds them one after the other: addition of extended
  reals is associative, so the two agree (`gate_assoc`).  The new cell state is
  logistic(f) * C + logistic(i) * tanh(g) and the new hidden state logistic(o) * tanh(new cell state), with i, f, g, o
  the gate columns j, 1024 + j, 2048 + j, 3072 + j.
-/
import Idealize.ShloMosaic.Lib.ValueIdx
import Idealize.ShloMosaic.PureOps.Ideal.Laws

noncomputable section

open scoped BigOperators

namespace Cert.Lstm

open Idealize.ShloMosaic Idealize.ShloMosaic.ValueIdx

abbrev SAct : Shape := ⟨2, ![8192, 1024]⟩
abbrev SWt : Shape := ⟨2, ![4096, 1024]⟩
abbrev SBias : Shape := ⟨1, ![4096]⟩

/-- Column `o + j` of the 4096 gate columns, for one of the four gates (`o` = 0, 1024, 2048, 3072). -/
def col (o : Nat) (ho : o + 1024 ≤ 4096) (j : Fin 1024) : Fin 4096 := ⟨o + j.val, by omega⟩

theorem col_val (o : Nat) (ho : o + 1024 ≤ 4096) (j : Fin 1024) : (col o ho j).val = o + j.val := rfl

section
variable (X H : SAct.Idx → EReal) (WX WH : SWt.Idx → EReal) (BX BH : SBias.Idx → EReal) (C : SAct.Idx → EReal)

/-- The two matrix products of a gate's pre-activation. -/
def prods (r : Fin 8192) (n : Fin 4096) : EReal :=
  (∑ k : Fin 1024, X (ix2 r k) * WX (ix2 n k)) + (∑ k : Fin 1024, H (ix2 r k) * WH (ix2 n k))

/-- The pre-activation with the two biases added to each other first. -/
def gate (r : Fin 8192) (n : Fin 4096) : EReal := prods X H WX WH r n + (BX (ix1 n) + BH (ix1 n))

/-- The pre-activation with the two biases added one after the other. -/
def gateSeq (r : Fin 8192) (n : Fin 4096) : EReal := prods X H WX WH r n + BX (ix1 n) + BH (ix1 n)

theorem gate_assoc (r : Fin 8192) (n : Fin 4096) : gateSeq X H WX WH BX BH r n = gate X H WX WH BX BH r n :=
  add_assoc _ _ _

/-- The new cell state from a pre-activation function. -/
def cellOf (g : Fin 8192 → Fin 4096 → EReal) (r : Fin 8192) (j : Fin 1024) : EReal :=
  Ideal.logistic (g r (col 1024 (by decide) j)) * C (ix2 r j)
    + Ideal.logistic (g r (col 0 (by decide) j)) * Ideal.tanh (g r (col 2048 (by decide) j))

/-- The new hidden state from a pre-activation function. -/
def hiddenOf (g : Fin 8192 → Fin 4096 → EReal) (r : Fin 8192) (j : Fin 1024) : EReal :=
  Ideal.logistic (g r (col 3072 (by decide) j)) * Ideal.tanh (cellOf C g r j)

/-- The new cell state as an array. -/
def cellArr : SAct.Idx → EReal := fun i => cellOf C (gate X H WX WH BX BH) (i 0) (i 1)

/-- The new hidden state as an array. -/
def hiddenArr : SAct.Idx → EReal := fun i => hiddenOf C (gate X H WX WH BX BH) (i 0) (i 1)

theorem gateSeq_eq : gateSeq X H WX WH BX BH = gate X H WX WH BX BH :=
  funext fun r => funext fun n => gate_assoc X H WX WH BX BH r n

end

end Cert.Lstm

end
-- ==== Proof.KIPayload.lean ====
/-
  The body's three payloads read at an entry, on the extended reals.

  The gate block (`k0_pay1`) of a row block is the two products of the x and h blocks (rounded to bf16, which changes
  nothing here) with the stacked weights, contracted over the 1024 features of both operands' last axis, plus the
  bias row broadcast down the block: at (p, n) it is the sum over k of x[p,k] * wx[n,k] plus the sum over k of
  h[p,k] * wh[n,k], plus b[n].  The cell payload (`k0_pay2`) at (p, j) is logistic(f) * c + logistic(i) * tanh(g) and
  the hidden payload (`k0_pay3`) is logistic(o) * tanh(cell), with i, f, g, o the gate block's columns j, 1024 + j,
  2048 + j, 3072 + j.
-/
import proofs.«141649_j5909875000082_1_alg».proof.Proof.Gen.KernelIdeal.Skeleton
import proofs.«141649_j5909875000082_1_alg».proof.Proof.LibDotT
import proofs.«141649_j5909875000082_1_alg».proof.Proof.Spec
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Lstm

section
variable (x0 x1 : FVec Ideal S256x1024 .f32) (x2 x3 : FVec Ideal S4096x1024 .bf16) (x4 : FVec Ideal S4096 .f32)
  (x5 : FVec Ideal S256x1024 .f32)

/-- The gate block at row p of the block and gate column n. -/
def gblk (p : Fin 256) (n : Fin 4096) : EReal :=
  (∑ k : Fin 1024, x0 (ix2 p k) * x2 (ix2 n k)) + (∑ k : Fin 1024, x1 (ix2 p k) * x3 (ix2 n k)) + x4 (ix1 n)

theorem pay1_apply (p : Fin 256) (n : Fin 4096) :
    k0_pay1 (F := Ideal) x0 x1 x2 x3 x4 (ix2 p n) = gblk x0 x1 x2 x3 x4 p n := by
  unfold k0_pay1 gblk
  rw [addf_apply, addf_apply,
    Cert.LibDot.matmul_11_zero_apply dot_S256x1024_S4096x1024_S256x4096_1_1_0_0_n_n rfl rfl rfl rfl rfl rfl,
    Cert.LibDot.matmul_11_zero_apply dot_S256x1024_S4096x1024_S256x4096_1_1_0_0_n_n rfl rfl rfl rfl rfl rfl,
    broadcastTo_1b_ab_apply, shapeCast_a_1a_apply, shapeCast_self, shapeCast_self, shapeCast_self]
  rfl

theorem pay2_apply (p : Fin 256) (j : Fin 1024) :
    k0_pay2 (F := Ideal) x0 x1 x2 x3 x4 x5 (ix2 p j)
      = Ideal.logistic (gblk x0 x1 x2 x3 x4 p (col 1024 (by decide) j)) * x5 (ix2 p j)
        + Ideal.logistic (gblk x0 x1 x2 x3 x4 p (col 0 (by decide) j))
          * Ideal.tanh (gblk x0 x1 x2 x3 x4 p (col 2048 (by decide) j)) := by
  unfold k0_pay2
  rw [addf_apply, mulf_apply, mulf_apply]
  show Ideal.logistic (extractStridedSlice S256x1024 ![0, 1024] (k0_pay1 (F := Ideal) x0 x1 x2 x3 x4) _ (ix2 p j)) * x5 (ix2 p j)
      + Ideal.logistic (extractStridedSlice S256x1024 ![0, 0] (k0_pay1 (F := Ideal) x0 x1 x2 x3 x4) _ (ix2 p j))
        * Ideal.tanh (extractStridedSlice S256x1024 ![0, 2048] (k0_pay1 (F := Ideal) x0 x1 x2 x3 x4) _ (ix2 p j)) = _
  rw [slice2_axis1_apply 1024 _ _ p j (col 1024 (by decide) j) rfl,
    slice2_axis1_apply 0 _ _ p j (col 0 (by decide) j) rfl,
    slice2_axis1_apply 2048 _ _ p j (col 2048 (by decide) j) rfl,
    pay1_apply, pay1_apply, pay1_apply]

theorem pay3_apply (p : Fin 256) (j : Fin 1024) :
    k0_pay3 (F := Ideal) x0 x1 x2 x3 x4 x5 (ix2 p j)
      = Ideal.logistic (gblk x0 x1 x2 x3 x4 p (col 3072 (by decide) j))
        * Ideal.tanh (k0_pay2 (F := Ideal) x0 x1 x2 x3 x4 x5 (ix2 p j)) := by
  unfold k0_pay3
  rw [mulf_apply]
  show Ideal.logistic (extractStridedSlice S256x1024 ![0, 3072] (k0_pay1 (F := Ideal) x0 x1 x2 x3 x4) _ (ix2 p j))
      * Ideal.tanh (k0_pay2 (F := Ideal) x0 x1 x2 x3 x4 x5 (ix2 p j)) = _
  rw [slice2_axis1_apply 3072 _ _ p j (col 3072 (by decide) j) rfl, pay1_apply]

end

end Cert.KernelIdeal.Pay

end
-- ==== Proof.KIValue.lean ====
/-
  What the kernel's two result arrays hold after the run, at the ideal values: the new hidden state and the new cell
  state of the LSTM cell, as whole-array functions of the argument arrays.

  The region finds the stacked weights (rounded to bf16: the identity here) and the sum of the two stacked biases in
  the arrays the host operations wrote; the x, h and c windows move one row block of 256 rows per grid point and the
  weight and bias windows stay at block zero.  So at point t, row p of a block is row 256 t + p of the arrays, the
  body's payloads at (p, j) are the cell's formulas at (256 t + p, j), what point t writes back is block t of the
  result function, and the 32 blocks tile the 8192 rows.
-/
import proofs.«141649_j5909875000082_1_alg».proof.Proof.KIFrame
import proofs.«141649_j5909875000082_1_alg».proof.Proof.KIPayload
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Frm Cert.KernelIdeal.Pay Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The stacked weights and biases -/

abbrev WX (c : Dev nD) : FVec Ideal S4096x1024 .f32 := concatenate S4096x1024 0 [⟨S1024x1024, (m ((c : Thread nD τ).loc main_arg3))⟩, ⟨S1024x1024, (m ((c : Thread nD τ).loc main_arg7))⟩, ⟨S1024x1024, (m ((c : Thread nD τ).loc main_arg11))⟩, ⟨S1024x1024, (m ((c : Thread nD τ).loc main_arg15))⟩] concatenates_S1024x1024_S1024x1024_S1024x1024_S1024x1024_S4096x1024_d0
abbrev WH (c : Dev nD) : FVec Ideal S4096x1024 .f32 := concatenate S4096x1024 0 [⟨S1024x1024, (m ((c : Thread nD τ).loc main_arg5))⟩, ⟨S1024x1024, (m ((c : Thread nD τ).loc main_arg9))⟩, ⟨S1024x1024, (m ((c : Thread nD τ).loc main_arg13))⟩, ⟨S1024x1024, (m ((c : Thread nD τ).loc main_arg17))⟩] concatenates_S1024x1024_S1024x1024_S1024x1024_S1024x1024_S4096x1024_d0
abbrev BX (c : Dev nD) : FVec Ideal S4096 .f32 := concatenate S4096 0 [⟨S1024, (m ((c : Thread nD τ).loc main_arg4))⟩, ⟨S1024, (m ((c : Thread nD τ).loc main_arg8))⟩, ⟨S1024, (m ((c : Thread nD τ).loc main_arg12))⟩, ⟨S1024, (m ((c : Thread nD τ).loc main_arg16))⟩] concatenates_S1024_S1024_S1024_S1024_S4096_d0
abbrev BH (c : Dev nD) : FVec Ideal S4096 .f32 := concatenate S4096 0 [⟨S1024, (m ((c : Thread nD τ).loc main_arg6))⟩, ⟨S1024, (m ((c : Thread nD τ).loc main_arg10))⟩, ⟨S1024, (m ((c : Thread nD τ).loc main_arg14))⟩, ⟨S1024, (m ((c : Thread nD τ).loc main_arg18))⟩] concatenates_S1024_S1024_S1024_S1024_S4096_d0

/-- The new cell state and the new hidden state, as arrays over the launch memory. -/
abbrev cellA (c : Dev nD) : S8192x1024.Idx → EReal :=
  cellArr (m ((c : Thread nD τ).loc main_arg0)) (m ((c : Thread nD τ).loc main_arg1)) (WX m c) (WH m c) (BX m c) (BH m c) (m ((c : Thread nD τ).loc main_arg2))
abbrev hiddenA (c : Dev nD) : S8192x1024.Idx → EReal :=
  hiddenArr (m ((c : Thread nD τ).loc main_arg0)) (m ((c : Thread nD τ).loc main_arg1)) (WX m c) (WH m c) (BX m c) (BH m c) (m ((c : Thread nD τ).loc main_arg2))

/-! ## What the host operations leave in the arrays the region reads -/

theorem V_v1 (c : Dev nD) : (V m c main_v1 : S4096x1024.Idx → Ideal .bf16) = truncf .bf16 (WX m c) bitsLt_bf16_f32 := by
  dsimp only [V, hostOps0]; after_results; rfl

theorem V_v3 (c : Dev nD) : (V m c main_v3 : S4096x1024.Idx → Ideal .bf16) = truncf .bf16 (WH m c) bitsLt_bf16_f32 := by
  dsimp only [V, hostOps0]; after_results; rfl

theorem V_v6 (c : Dev nD) : (V m c main_v6 : S4096.Idx → Ideal .f32) = addf (BX m c) (BH m c) := by
  dsimp only [V, hostOps0]; after_results; rfl

/-! ## The windows' blocks, read -/

theorem hz2 : (![0, 0] : Fin 2 → Nat) = fun _ => 0 := funext fun a => by fin_cases a <;> rfl
theorem hz1 : (![0] : Fin 1 → Nat) = fun _ => 0 := funext fun a => by fin_cases a; rfl

/-- The block indices over the grid: the row-block windows at (t, 0), the weight and bias windows at zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 32 := lt_of_lt_of_eq t.isLt N_0

/-- Row `256 t + p` of the arrays, for row p of the block at point t. -/
def row (t : Fin cfg0.N) (p : Fin 256) : Fin 8192 := ⟨256 * t.val + p.val, by have := t_lt t; omega⟩

section Blocks
variable (c : Dev nD) (t : Fin cfg0.N)

abbrev b0 : FVec Ideal S256x1024 .f32 := iblk m c 0 t
abbrev b1 : FVec Ideal S256x1024 .f32 := iblk m c 1 t
abbrev b2 : FVec Ideal S4096x1024 .bf16 := iblk m c 2 t
abbrev b3 : FVec Ideal S4096x1024 .bf16 := iblk m c 3 t
abbrev b4 : FVec Ideal S4096 .f32 := iblk m c 4 t
abbrev b5 : FVec Ideal S256x1024 .f32 := iblk m c 5 t

theorem rd0 (p : Fin 256) (k : Fin 1024) :
    b0 m c t (ix2 p k) = ((m ((c : Thread nD τ).loc main_arg0)) : S8192x1024.Idx → EReal) (ix2 (row t p) k) := by
  obtain ⟨e0, e1, -⟩ := idx_facts t
  show iblk m c 0 t (ix2 p k) = _
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 1024 + 1 * k.val = k.val; rw [e1]; omega

theorem rd1 (p : Fin 256) (k : Fin 1024) :
    b1 m c t (ix2 p k) = ((m ((c : Thread nD τ).loc main_arg1)) : S8192x1024.Idx → EReal) (ix2 (row t p) k) := by
  obtain ⟨-, -, e0, e1, -⟩ := idx_facts t
  show iblk m c 1 t (ix2 p k) = _
  unfold iblk
  rw [View.read_apply]
  show V m c main_arg1 _ = _
  rw [V_main_arg1]
  refine congrArg _ (funext fun a => Fin.ext ?_)
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega

theorem rd5 (p : Fin 256) (k : Fin 1024) :
    b5 m c t (ix2 p k) = ((m ((c : Thread nD τ).loc main_arg2)) : S8192x1024.Idx → EReal) (ix2 (row t p) k) := by
  obtain ⟨-, -, -, -, -, -, -, -, -, e0, e1, -⟩ := idx_facts t
  show iblk m c 5 t (ix2 p k) = _
  unfold iblk
  rw [View.read_apply]
  show V m c main_arg2 _ = _
  rw [V_main_arg2]
  refine congrArg _ (funext fun a => Fin.ext ?_)
  match a with
  | ⟨0, _⟩ => show win0_5.index t (0 : Fin 2) * 256 + 1 * p.val = 256 * t.val + p.val; rw [e0]; omega
  | ⟨1, _⟩ => show win0_5.index t (1 : Fin 2) * 1024 + 1 * k.val = k.val; rw [e1]; omega

theorem rd2 (n : Fin 4096) (k : Fin 1024) : b2 m c t (ix2 n k) = WX m c (ix2 n k) := by
  obtain ⟨-, -, -, -, e0, e1, -⟩ := idx_facts t
  show iblk m c 2 t (ix2 n k) = _
  unfold iblk
  rw [View.read_apply]
  show V m c main_v1 _ = _
  rw [V_v1, truncf_apply]
  refine congrArg _ (funext fun a => Fin.ext ?_)
  match a with
  | ⟨0, _⟩ => show win0_2.index t (0 : Fin 2) * 4096 + 1 * n.val = n.val; rw [e0]; omega
  | ⟨1, _⟩ => show win0_2.index t (1 : Fin 2) * 1024 + 1 * k.val = k.val; rw [e1]; omega

theorem rd3 (n : Fin 4096) (k : Fin 1024) : b3 m c t (ix2 n k) = WH m c (ix2 n k) := by
  obtain ⟨-, -, -, -, -, -, e0, e1, -⟩ := idx_facts t
  show iblk m c 3 t (ix2 n k) = _
  unfold iblk
  rw [View.read_apply]
  show V m c main_v3 _ = _
  rw [V_v3, truncf_apply]
  refine congrArg _ (funext fun a => Fin.ext ?_)
  match a with
  | ⟨0, _⟩ => show win0_3.index t (0 : Fin 2) * 4096 + 1 * n.val = n.val; rw [e0]; omega
  | ⟨1, _⟩ => show win0_3.index t (1 : Fin 2) * 1024 + 1 * k.val = k.val; rw [e1]; omega

theorem rd4 (n : Fin 4096) : b4 m c t (ix1 n) = BX m c (ix1 n) + BH m c (ix1 n) := by
  obtain ⟨-, -, -, -, -, -, -, -, e0, -⟩ := idx_facts t
  show iblk m c 4 t (ix1 n) = _
  unfold iblk
  rw [View.read_apply]
  show V m c main_v6 _ = _
  rw [V_v6, addf_apply]
  have e : (((cfg0.win 4).blk t).view.emb (ix1 n) : S4096.Idx) = ix1 n := funext fun a => Fin.ext (by
    match a with
    | ⟨0, _⟩ => show win0_4.index t (0 : Fin 1) * 4096 + 1 * n.val = n.val; rw [e0]; omega)
  rw [e]

/-- The gate block of point t at row p is the pre-activation at row 256 t + p. -/
theorem gblk_eq (p : Fin 256) (n : Fin 4096) :
    gblk (b0 m c t) (b1 m c t) (b2 m c t) (b3 m c t) (b4 m c t) p n
      = gate (m ((c : Thread nD τ).loc main_arg0)) (m ((c : Thread nD τ).loc main_arg1)) (WX m c) (WH m c) (BX m c) (BH m c) (row t p) n := by
  unfold gblk gate prods
  rw [rd4]
  refine congrArg (· + _) (congrArg₂ (· + ·) (Finset.sum_congr rfl fun k _ => ?_) (Finset.sum_congr rfl fun k _ => ?_))
  · rw [rd0, rd2]
  · rw [rd1, rd3]

/-- The cell payload of point t at (p, j) is the new cell state at (256 t + p, j). -/
theorem pay2_blk (p : Fin 256) (j : Fin 1024) :
    k0_pay2 (F := Ideal) (b0 m c t) (b1 m c t) (b2 m c t) (b3 m c t) (b4 m c t) (b5 m c t) (ix2 p j)
      = cellA m c (ix2 (row t p) j) := by
  refine (pay2_apply (b0 m c t) (b1 m c t) (b2 m c t) (b3 m c t) (b4 m c t) (b5 m c t) p j).trans ?_
  rw [gblk_eq, gblk_eq, gblk_eq, rd5]
  rfl

/-- The hidden payload of point t at (p, j) is the new hidden state at (256 t + p, j). -/
theorem pay3_blk (p : Fin 256) (j : Fin 1024) :
    k0_pay3 (F := Ideal) (b0 m c t) (b1 m c t) (b2 m c t) (b3 m c t) (b4 m c t) (b5 m c t) (ix2 p j)
      = hiddenA m c (ix2 (row t p) j) := by
  refine (pay3_apply (b0 m c t) (b1 m c t) (b2 m c t) (b3 m c t) (b4 m c t) (b5 m c t) p j).trans ?_
  rw [gblk_eq, pay2_blk]
  rfl

end Blocks

/-! ## What each point writes back, the cover, and the arrays after the run -/

theorem emb6 (t : Fin cfg0.N) (p : Fin 256) (j : Fin 1024) :
    (((cfg0.win 6).blk t).view.emb (ix2 p j) : S8192x1024.Idx) = ix2 (row t p) j := by
  obtain ⟨-, -, -, -, -, -, -, -, -, -, -, e0, e1, -⟩ := idx_facts t
  refine funext fun a => Fin.ext ?_
  match a with
  | ⟨0, _⟩ => show win0_6.index t (0 : Fin 2) * 256 + 1 * p.val = 256 * t.val + p.val; rw [e0]; omega
  | ⟨1, _⟩ => show win0_6.index t (1 : Fin 2) * 1024 + 1 * j.val = j.val; rw [e1]; omega

theorem emb7 (t : Fin cfg0.N) (p : Fin 256) (j : Fin 1024) :
    (((cfg0.win 7).blk t).view.emb (ix2 p j) : S8192x1024.Idx) = ix2 (row t p) j := by
  obtain ⟨-, -, -, -, -, -, -, -, -, -, -, -, -, e0, e1⟩ := idx_facts t
  refine funext fun a => Fin.ext ?_
  match a with
  | ⟨0, _⟩ => show win0_7.index t (0 : Fin 2) * 256 + 1 * p.val = 256 * t.val + p.val; rw [e0]; omega
  | ⟨1, _⟩ => show win0_7.index t (1 : Fin 2) * 1024 + 1 * j.val = j.val; rw [e1]; omega

/-- Point t writes back block t of the new hidden state. -/
theorem flushed6_eq (c : Dev nD) (t : Fin cfg0.N) :
    (dats m 0 c).flushed 6 t = ((cfg0.win 6).blk t).view.read (Elt Ideal) (hiddenA m c) := by
  show (cfg0.win 6).cut (grid0.coords t) ((dats m 0 c).after 6 t) = _
  rw [after0_6]
  unfold out0_6
  rw [View.canon_unit_zero hz2]
  simp only [View.ld_unit_zero (S := S256x1024) hz2, View.ld_unit_zero (S := S4096x1024) hz2, View.ld_unit_zero (S := S4096) hz1]
  funext y
  obtain ⟨p, j, rfl⟩ : ∃ (p : Fin 256) (j : Fin 1024), y = ix2 p j := ⟨y 0, y 1, eq_ix2 y⟩
  rw [View.read_apply, emb6]
  exact pay3_blk m c t p j

/-- Point t writes back block t of the new cell state. -/
theorem flushed7_eq (c : Dev nD) (t : Fin cfg0.N) :
    (dats m 0 c).flushed 7 t = ((cfg0.win 7).blk t).view.read (Elt Ideal) (cellA m c) := by
  show (cfg0.win 7).cut (grid0.coords t) ((dats m 0 c).after 7 t) = _
  rw [after0_7]
  unfold out0_7
  rw [View.canon_unit_zero hz2]
  simp only [View.ld_unit_zero (S := S256x1024) hz2, View.ld_unit_zero (S := S4096x1024) hz2, View.ld_unit_zero (S := S4096) hz1]
  funext y
  obtain ⟨p, j, rfl⟩ : ∃ (p : Fin 256) (j : Fin 1024), y = ix2 p j := ⟨y 0, y 1, eq_ix2 y⟩
  rw [View.read_apply, emb7]
  exact pay2_blk m c t p j

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v7_1).slice (win0_7.rect t)).set ↔ _
  rw [View.set_slice_whole, Rect.mem_set_unit]
  exact Iff.rfl

/-- The point whose block holds row r. -/
def ptOf (i : S8192x1024.Idx) : Fin cfg0.N := ⟨(i 0).val / 256, by
  have h : (i 0).val < 8192 := (i 0).isLt
  rw [show cfg0.N = 32 from N_0]; omega⟩

theorem cover6 (i : S8192x1024.Idx) : ∃ t : Fin cfg0.N, (cfg0.win 6).flush t = true ∧ i ∈ ((cfg0.win 6).blk t).view.set := by
  refine ⟨ptOf i, flush0_6 _, ?_⟩
  obtain ⟨-, -, -, -, -, -, -, -, -, -, -, e0, e1, -⟩ := idx_facts (ptOf i)
  have h0 : (i 0).val < 8192 := (i 0).isLt
  have h1 : (i 1).val < 1024 := (i 1).isLt
  have hp : (ptOf i).val = (i 0).val / 256 := rfl
  rw [mem_blk6]
  intro a
  match a with
  | ⟨0, _⟩ => show win0_6.index (ptOf i) (0 : Fin 2) * 256 ≤ (i 0).val ∧ (i 0).val < win0_6.index (ptOf i) (0 : Fin 2) * 256 + 256; rw [e0, hp]; omega
  | ⟨1, _⟩ => show win0_6.index (ptOf i) (1 : Fin 2) * 1024 ≤ (i 1).val ∧ (i 1).val < win0_6.index (ptOf i) (1 : Fin 2) * 1024 + 1024; rw [e1]; omega

theorem cover7 (i : S8192x1024.Idx) : ∃ t : Fin cfg0.N, (cfg0.win 7).flush t = true ∧ i ∈ ((cfg0.win 7).blk t).view.set := by
  refine ⟨ptOf i, flush0_7 _, ?_⟩
  obtain ⟨-, -, -, -, -, -, -, -, -, -, -, -, -, e0, e1⟩ := idx_facts (ptOf i)
  have h0 : (i 0).val < 8192 := (i 0).isLt
  have h1 : (i 1).val < 1024 := (i 1).isLt
  have hp : (ptOf i).val = (i 0).val / 256 := rfl
  rw [mem_blk7]
  intro a
  match a with
  | ⟨0, _⟩ => show win0_7.index (ptOf i) (0 : Fin 2) * 256 ≤ (i 0).val ∧ (i 0).val < win0_7.index (ptOf i) (0 : Fin 2) * 256 + 256; rw [e0, hp]; omega
  | ⟨1, _⟩ => show win0_7.index (ptOf i) (1 : Fin 2) * 1024 ≤ (i 1).val ∧ (i 1).val < win0_7.index (ptOf i) (1 : Fin 2) * 1024 + 1024; rw [e1]; omega

/-- After the run the first result array is the new hidden state, -/
theorem final6 (c : Dev nD) : (dats m 0 c).arrAt 6 cfg0.N = hiddenA m c :=
  (dats m 0 c).arrAt_eq_of_cover 6 (hiddenA m c) (fun t _ => flushed6_eq m c t) cover6

/-- and the second the new cell state. -/
theorem final7 (c : Dev nD) : (dats m 0 c).arrAt 7 cfg0.N = cellA m c :=
  (dats m 0 c).arrAt_eq_of_cover 7 (cellA m c) (fun t _ => flushed7_eq m c t) cover7

/-- The run, read: the two results at the LSTM cell's functions of the arguments, the arguments unchanged. -/
theorem run : θ_run defs (onTc (τ := τ) (main (F := Ideal))) ⟨m, fun _ => 0, ρ⟩ (fun r => ∀ c : Dev nD,
      r.2.mem ((c.tc : Thread nD τ).loc main_v7_0) = hiddenA m c
      ∧ r.2.mem ((c.tc : Thread nD τ).loc main_v7_1) = cellA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1.trans (final6 m c), (h c).2.1.trans (final7 m c), (h c).2.2⟩)
    (run_named m ρ)

end Cert.KernelIdeal.Val

end
-- ==== Proof.RefValue.lean ====
/-
  The reference program's two results are the LSTM cell's new hidden state and new cell state, entry by entry.

  Its gate pre-activations are x times the transposed stacked input weights plus h times the transposed stacked
  hidden weights, then the two stacked biases added one after the other (each broadcast down the rows); the four
  gates are column slices of width 1024; a sigmoid is written out as 1 / (1 + exp(-z)), which on the extended reals
  is the logistic function, the literal one being the number one.
-/
import proofs.«141649_j5909875000082_1_alg».proof.Proof.Gen.ReferenceIdeal.Run
import proofs.«141649_j5909875000082_1_alg».proof.Proof.Gen.ReferenceIdeal.Read
import proofs.«141649_j5909875000082_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.Lstm

section
variable (x0 x1 x2 : (⟨S8192x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-- The pre-activation array at row r and gate column n: the two products, then the biases one after the other. -/
theorem gate_apply (r : Fin 8192) (n : Fin 4096) :
    val_main_v14 (F := Ideal) x0 x1 x3 x4 x5 x6 x7 x8 x9 x10 x11 x12 x13 x14 x15 x16 x17 x18 (ix2 r n) = gateSeq x0 x1 (val_main_v0 (F := Ideal) x3 x7 x11 x15) (val_main_v1 (F := Ideal) x5 x9 x13 x17) (val_main_v2 (F := Ideal) x4 x8 x12 x16) (val_main_v3 (F := Ideal) x6 x10 x14 x18) r n := by
  rw [val_main_v14_apply, val_main_v11_apply, val_main_v8_apply, val_main_v5_apply, val_main_v7_apply,
    val_main_v10_apply, val_main_v9_apply, val_main_v13_apply, val_main_v12_apply]
  simp only [val_main_v4_apply, val_main_v6_apply, Ideal.addf_def]
  unfold gateSeq prods
  have el5 : ∀ k : Fin 1024, lidx_main_v5 (ix2 r n) k = ix2 r k := fun k =>
    funext fun a => Fin.ext (by match a with | ⟨0, _⟩ => rfl | ⟨1, _⟩ => rfl)
  have er5 : ∀ k : Fin 1024, idx_main_v4 (ridx_main_v5 (ix2 r n) k) = ix2 n k := fun k =>
    funext fun a => Fin.ext (by match a with | ⟨0, _⟩ => rfl | ⟨1, _⟩ => rfl)
  have el7 : ∀ k : Fin 1024, lidx_main_v7 (ix2 r n) k = ix2 r k := fun k =>
    funext fun a => Fin.ext (by match a with | ⟨0, _⟩ => rfl | ⟨1, _⟩ => rfl)
  have er7 : ∀ k : Fin 1024, idx_main_v6 (ridx_main_v7 (ix2 r n) k) = ix2 n k := fun k =>
    funext fun a => Fin.ext (by match a with | ⟨0, _⟩ => rfl | ⟨1, _⟩ => rfl)
  have eb : idx_main_v9 (idx_main_v10 (ix2 r n)) = ix1 n :=
    funext fun a => Fin.ext (by match a with | ⟨0, _⟩ => rfl)
  have eb' : idx_main_v12 (idx_main_v13 (ix2 r n)) = ix1 n :=
    funext fun a => Fin.ext (by match a with | ⟨0, _⟩ => rfl)
  simp only [el5, er5, el7, er7, eb, eb']

/-- A written-out sigmoid of the host is the logistic function. -/
theorem sigmoid_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  simp only [Ideal.hostDivf_def, Ideal.addf_def, Ideal.hostUnary_exp_def, Ideal.hostNegf_def, Ideal.negf_def,
    Ideal.ofBits_def, Ideal.ofBits_one_f32, Ideal.logistic]

/-- The reference's new cell state. -/
theorem cell_eq : val_main_v40 (F := Ideal) x0 x1 x2 x3 x4 x5 x6 x7 x8 x9 x10 x11 x12 x13 x14 x15 x16 x17 x18 = cellArr x0 x1 (val_main_v0 (F := Ideal) x3 x7 x11 x15) (val_main_v1 (F := Ideal) x5 x9 x13 x17) (val_main_v2 (F := Ideal) x4 x8 x12 x16) (val_main_v3 (F := Ideal) x6 x10 x14 x18) x2 := by
  funext i
  obtain ⟨r, j, rfl⟩ : ∃ (r : Fin 8192) (j : Fin 1024), i = ix2 r j := ⟨i 0, i 1, eq_ix2 i⟩
  have e0 : idx_main_v15 (ix2 r j) = ix2 r (col 0 (by decide) j) :=
    funext fun a => Fin.ext (by match a with | ⟨0, _⟩ => rfl | ⟨1, _⟩ => exact (Nat.zero_add _).symm)
  have e1 : idx_main_v16 (ix2 r j) = ix2 r (col 1024 (by decide) j) :=
    funext fun a => Fin.ext (by match a with | ⟨0, _⟩ => rfl | ⟨1, _⟩ => rfl)
  have e2 : idx_main_v17 (ix2 r j) = ix2 r (col 2048 (by decide) j) :=
    funext fun a => Fin.ext (by match a with | ⟨0, _⟩ => rfl | ⟨1, _⟩ => rfl)
  rw [val_main_v40_apply, val_main_v38_apply, val_main_v39_apply, val_main_v30_apply, val_main_v29_apply,
    val_main_cst_2_apply, val_main_v28_apply, val_main_v27_apply, val_main_cst_1_apply, val_main_v26_apply,
    val_main_v25_apply, val_main_v16_apply, val_main_v24_apply, val_main_v23_apply, val_main_cst_0_apply,
    val_main_v22_apply, val_main_v21_apply, val_main_cst_apply, val_main_v20_apply, val_main_v19_apply,
    val_main_v15_apply, val_main_v31_apply, val_main_v17_apply, e0, e1, e2, gate_apply, gate_apply, gate_apply,
    sigmoid_eq, sigmoid_eq, gateSeq_eq]
  rfl

/-- The reference's new hidden state. -/
theorem hidden_eq : val_main_v42 (F := Ideal) x0 x1 x2 x3 x4 x5 x6 x7 x8 x9 x10 x11 x12 x13 x14 x15 x16 x17 x18 = hiddenArr x0 x1 (val_main_v0 (F := Ideal) x3 x7 x11 x15) (val_main_v1 (F := Ideal) x5 x9 x13 x17) (val_main_v2 (F := Ideal) x4 x8 x12 x16) (val_main_v3 (F := Ideal) x6 x10 x14 x18) x2 := by
  funext i
  obtain ⟨r, j, rfl⟩ : ∃ (r : Fin 8192) (j : Fin 1024), i = ix2 r j := ⟨i 0, i 1, eq_ix2 i⟩
  have e3 : idx_main_v18 (ix2 r j) = ix2 r (col 3072 (by decide) j) :=
    funext fun a => Fin.ext (by match a with | ⟨0, _⟩ => rfl | ⟨1, _⟩ => rfl)
  rw [val_main_v42_apply, val_main_v37_apply, val_main_v36_apply, val_main_cst_4_apply, val_main_v35_apply,
    val_main_v34_apply, val_main_cst_3_apply, val_main_v33_apply, val_main_v32_apply, val_main_v18_apply,
    val_main_v41_apply, e3, gate_apply, sigmoid_eq, gateSeq_eq, cell_eq]
  rfl

end

end Cert.ReferenceIdeal.RefValue

end
-- ==== Proof.lean ====
/-
  A fused LSTM cell against its plain reference, over the extended reals.

  Both programs stack the four input-side weight matrices, the four hidden-side ones and the two groups of four bias
  vectors, form the gate pre-activations x * WX^T + h * WH^T + bias, cut them into the input, forget, cell and output
  gates, and return logistic(o) * tanh(c') and c' = logistic(f) * c + logistic(i) * tanh(g).  The kernel does it one
  block of 256 rows at a time with its matrix products contracted over both operands' last axis and the two biases
  added to each other first; the reference transposes the stacked weights, multiplies rows by columns and adds the two
  biases one after the other.  At the ideal values rounding the weights and activations to bf16 is the identity, the
  two contractions are the same sums, a sigmoid written 1 / (1 + exp(-z)) is the logistic function, and the two
  orders of adding the biases agree because addition of extended reals is associative: no finiteness is used.

  The three frames: each kernel program's from its run through the pipeline (every argument array is either a staged
  input never written back or staged by no window, and no host operation writes one), the reference's from its run.
  The idealization rewrote nothing, so `preserves` is trivial.
-/
import proofs.«141649_j5909875000082_1_alg».proof.Defs
import proofs.«141649_j5909875000082_1_alg».proof.Proof.Gen.Kernel
import proofs.«141649_j5909875000082_1_alg».proof.Proof.Gen.KernelIdeal
import proofs.«141649_j5909875000082_1_alg».proof.Proof.Gen.ReferenceIdeal
import proofs.«141649_j5909875000082_1_alg».proof.Proof.Gen.Pre_finite_inputs
import proofs.«141649_j5909875000082_1_alg».proof.Proof.KFrame
import proofs.«141649_j5909875000082_1_alg».proof.Proof.KIFrame
import proofs.«141649_j5909875000082_1_alg».proof.Proof.KIValue
import proofs.«141649_j5909875000082_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the new hidden state and the new cell state of the same cell: the kernel's arrays by its
    run read block by block, the reference's by its run read entry by entry, over arguments that agree. -/
theorem algebraic : Cert.algebraic_KernelIdeal_ReferenceIdeal := by
  intro m ρ m' ρ' _ hagree
  refine ⟨fun c => Cert.KernelIdeal.Val.hiddenA m c, fun c => Cert.KernelIdeal.Val.cellA m c,
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v42_eq, Cert.ReferenceIdeal.RefValue.hidden_eq,
      h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.cell_eq,
      h0, h1, h2, h3, h4, h5, h6, h7, h8, h9, h10, h11, h12, h13, h14, h15, h16, h17, h18]
    rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
